-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S1600000 .f32) (main_arg2 : FVec F S128x128 .f32) (main_arg3 : FVec F S128 .f32) (main_arg4 : FVec F S128x128 .f32) (main_arg5 : FVec F S128 .f32) (main_arg6 : IVec S1600000 32) (main_arg7 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S2000x128 : Shape := ⟨2, ![2000, 128]⟩
abbrev S1x128 : Shape := ⟨2, ![1, 128]⟩

abbrev nBuf : Space → Nat
  | .hbm => 27
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1600000, .i32⟩
  | .hbm, ⟨7, _⟩ => ⟨S1600000, .i32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S128x128, .f32⟩
  | .hbm, ⟨25, _⟩ => ⟨S128x128, .f32⟩
  | .hbm, ⟨26, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128_S128_0 : ∀ a, (![0] : Fin 1 → Nat) a + S128.size a ≤ S128.size a
  h_S128 : 0 < S128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  shapeCasts_S128_S1x128 : S128.ShapeCasts S1x128
  broadcasts_S1x128_S2000x128 : S1x128.Broadcasts S2000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1600000, .i32⟩
  | .hbm, ⟨7, _⟩ => ⟨S1600000, .i32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S128x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S128x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S128x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S_, .f32⟩
  | .hbm, ⟨44, _⟩ => ⟨S100000x128, .f32⟩
  | .hbm, ⟨45, _⟩ => ⟨S100000x128, .i1⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibDenseRows.lean ====
/-
  A dense layer read entry by entry at the ideal values.

  For a matrix `x` of `R` rows and `K` columns, a matrix `w` of `K` rows and `C` columns and a vector `b` of `C`
  entries, `dense x w b` is the matrix whose entry `(r, c)` is `∑ k, x (r, k) * w (k, c) + b c` on the extended reals.
  Two spellings of it are read back to that one function: the kernel's (a matrix product accumulated into a zero splat,
  plus the bias cast to one row and repeated down the rows) and the host's (a `dot_general` contracting the last axis
  of `x` with the first of `w`, plus the bias laid along axis 1 of a one-row matrix and that row repeated). Neither
  reading needs finiteness: no sum is regrouped, only re-indexed by its one contracted coordinate.

  Row `r` of `dense x w b` depends on row `r` of `x` alone (`dense_row_congr`): this is what lets a block of rows
  computed on its own be identified with the same rows of the product of the whole matrix.
-/
import Idealize.ShloMosaic.Lib.KernelVsHost
import Idealize.ShloMosaic.Lib.StackMember
import Idealize.ShloMosaic.Lib.ValueLayout

noncomputable section

namespace DenseRows

open Idealize.ShloMosaic Idealize.ShloMosaic.ValueIdx

variable {R K C : Nat}

/-- `x · w + b`: entry `(r, c)` is the sum over `k` of `x (r, k) * w (k, c)`, plus `b c`. -/
def dense (x : (⟨2, ![R, K]⟩ : Shape).Idx → EReal) (w : (⟨2, ![K, C]⟩ : Shape).Idx → EReal)
    (b : (⟨1, ![C]⟩ : Shape).Idx → EReal) : (⟨2, ![R, C]⟩ : Shape).Idx → EReal :=
  fun i => (∑ k : Fin K, x (ix2 (i 0 : Fin R) k) * w (ix2 k (i 1 : Fin C))) + b (ix1 (i 1 : Fin C))

/-- The entry at `(r, c)`, with the coordinates named. -/
theorem dense_ix2 (x : (⟨2, ![R, K]⟩ : Shape).Idx → EReal) (w : (⟨2, ![K, C]⟩ : Shape).Idx → EReal)
    (b : (⟨1, ![C]⟩ : Shape).Idx → EReal) (r : Fin R) (c : Fin C) :
    dense x w b (ix2 r c) = (∑ k : Fin K, x (ix2 r k) * w (ix2 k c)) + b (ix1 c) := rfl

/-- Row `r` of the layer depends on row `r` of `x` alone: two matrices, of any numbers of rows, that agree along one
    row of each give layers that agree along those rows. -/
theorem dense_row_congr {R' : Nat} (x : (⟨2, ![R, K]⟩ : Shape).Idx → EReal) (x' : (⟨2, ![R', K]⟩ : Shape).Idx → EReal)
    (w : (⟨2, ![K, C]⟩ : Shape).Idx → EReal) (b : (⟨1, ![C]⟩ : Shape).Idx → EReal) (r : Fin R) (r' : Fin R')
    (h : ∀ k : Fin K, x (ix2 r k) = x' (ix2 r' k)) (c : Fin C) :
    dense x w b (ix2 r c) = dense x' w b (ix2 r' c) := by
  rw [dense_ix2, dense_ix2]
  exact congrArg (· + b (ix1 c)) (Finset.sum_congr rfl fun k _ => by rw [h k])

/-- The host's spelling: `dot_general` over the one contracted axis, plus the bias laid along axis 1 of a one-row
    matrix whose row is then repeated down the `R` rows. -/
theorem dense_of_host {φ₁ φ₂ : FTy} (prec : Option ContractPrecision) (x : FVec Ideal ⟨2, ![R, K]⟩ φ₁)
    (w : FVec Ideal ⟨2, ![K, C]⟩ φ₂) (b : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![R, C]⟩ ![0, 1]) :
    addf (Host.dotGeneral (DotDims.plain R K C) prec x w)
        (broadcastInDim ⟨2, ![R, C]⟩ ![0, 1] h2 (broadcastInDim ⟨2, ![1, C]⟩ ![1] h1 b)) = dense x w b := by
  funext i
  obtain ⟨r, c, rfl⟩ : ∃ (r : Fin R) (c : Fin C), i = ix2 r c := ⟨i 0, i 1, eq_ix2 i⟩
  rw [addf_apply, StackMember.dotGeneral_plain_apply, broadcastInDim_oneRow_apply,
    broadcastInDim_apply ![1] h1 b (ix2 (0 : Fin 1) c) (ix1 c) (by
      intro a
      match a with
      | ⟨0, _⟩ =>
        show c.val = if C = 1 then 0 else c.val
        split
        · have := c.isLt; omega
        · rfl)]
  rfl

/-- The kernel's spelling: the matrix product accumulated into the zero splat, plus the bias cast to one row and that
    row repeated down the `R` rows. -/
theorem dense_of_kernel {φ₁ φ₂ : FTy} (prec : Option ContractPrecision) (x : FVec Ideal ⟨2, ![R, K]⟩ φ₁)
    (w : FVec Ideal ⟨2, ![K, C]⟩ φ₂) (b : FVec Ideal ⟨1, ![C]⟩ .f32)
    (h1 : (⟨1, ![C]⟩ : Shape).ShapeCasts ⟨2, ![1, C]⟩) (h2 : (⟨2, ![1, C]⟩ : Shape).Broadcasts ⟨2, ![R, C]⟩) :
    addf (matmul (DotDims.plain R K C) prec x w (constant ⟨2, ![R, C]⟩ .f32 0x00000000#32))
        (broadcastTo ⟨2, ![R, C]⟩ (shapeCast ⟨2, ![1, C]⟩ b h1) h2) = dense x w b := by
  funext i
  obtain ⟨r, c, rfl⟩ : ∃ (r : Fin R) (c : Fin C), i = ix2 r c := ⟨i 0, i 1, eq_ix2 i⟩
  rw [addf_apply, matmul_zero_eq_dotGeneral, StackMember.dotGeneral_plain_apply, broadcastTo_1b_ab_apply,
    shapeCast_a_1a_apply]
  rfl

end DenseRows

end
-- ==== Proof.Layer.lean ====
/-
  What one row of the graph layer computes, at the ideal values.

  With `e` the node embeddings, `n` the aggregated neighbour embeddings (one row per node), `w1`, `w2` the two
  weight matrices ALREADY transposed and `b1`, `b2` the biases, the layer's pre-activation at node `r` and feature `c` is

      t = ((e·w1 + b1) + (n·w2 + b2)) + (((n·w2 + b2) ∘ e)·w2 + b2)        at (r, c)

  (`·` a matrix product, `∘` the entrywise product), and the result is `t` where `t ≥ 0` and `0.2 · t` elsewhere, the
  slope being the binary32 word nearest to one fifth; the same word stands in both programs, so its value is never
  needed. Every term on row `r` is built from row `r` of `e` and row `r` of `n` alone (`layer_row_congr`), whatever the
  number of rows: a block of rows pushed through the layer on its own gives the same rows as the whole array does.
-/
import proofs.«133104_j4982162063610_1_alg».proof.Proof.LibDenseRows

noncomputable section

namespace Cert.Layer

open Idealize.ShloMosaic Idealize.ShloMosaic.ValueIdx DenseRows

/-- The activation: `t` where it is at least zero, the slope word times `t` elsewhere. -/
def leaky (t : EReal) : EReal :=
  Scalar.select (FloatOps.cmpf (F := Ideal) (φ := .f32) .oge t (Ideal.ofBits .f32 0x00000000#32)) t
    (Ideal.ofBits .f32 0x3E4CCCCD#32 * t)

variable {R : Nat}

/-- The layer on `R` rows: self term, neighbour term and interaction term summed in that order, then the activation. -/
def layer (e n : (⟨2, ![R, 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) : (⟨2, ![R, 128]⟩ : Shape).Idx → EReal :=
  fun i => leaky ((dense e w1 b1 i + dense n w2 b2 i) + dense (fun j => dense n w2 b2 j * e j) w2 b2 i)

/-- Row `r` of the layer is a function of row `r` of the embeddings and row `r` of the neighbour sums alone. -/
theorem layer_row_congr {R' : Nat} (e n : (⟨2, ![R, 128]⟩ : Shape).Idx → EReal)
    (e' n' : (⟨2, ![R', 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) (r : Fin R) (r' : Fin R')
    (he : ∀ k : Fin 128, e (ix2 r k) = e' (ix2 r' k)) (hn : ∀ k : Fin 128, n (ix2 r k) = n' (ix2 r' k)) (c : Fin 128) :
    layer e n w1 b1 w2 b2 (ix2 r c) = layer e' n' w1 b1 w2 b2 (ix2 r' c) := by
  unfold layer
  rw [dense_row_congr e e' w1 b1 r r' he c, dense_row_congr n n' w2 b2 r r' hn c,
    dense_row_congr (fun j => dense n w2 b2 j * e j) (fun j => dense n' w2 b2 j * e' j) w2 b2 r r'
      (fun k => by
        show dense n w2 b2 (ix2 r k) * e (ix2 r k) = dense n' w2 b2 (ix2 r' k) * e' (ix2 r' k)
        rw [dense_row_congr n n' w2 b2 r r' hn k, he k]) c]

/-- At the ideal values a change of float format is the identity. -/
theorem truncf_ideal {s : Shape} {φ ψ : FTy} (a : FVec Ideal s φ) (h : ψ.bits < φ.bits) :
    (truncf ψ a h : s.Idx → EReal) = a := rfl

end Cert.Layer

end
-- ==== Proof.KernelPayload.lean ====
/-
  What the kernel's body stores, as a function of what it loads, at the ideal values.

  The body loads a block of 2000 rows of the embeddings and of the neighbour sums together with both (transposed)
  weight matrices and both biases, and stores ONE value: three matrix products, each accumulated into zero and followed
  by a bias repeated down the rows, combined entrywise and passed through the activation. The conversions to the
  sixteen-bit format before each product are the identity on the extended reals, and a product into a zero accumulator
  plus a repeated bias is the dense layer `x · w + b` read entry by entry. So the stored value is the layer's formula on
  the block's 2000 rows.
-/
import proofs.«133104_j4982162063610_1_alg».proof.Proof.Gen.KernelIdeal.Skeleton
import proofs.«133104_j4982162063610_1_alg».proof.Proof.Layer

noncomputable section

namespace Cert.KernelIdeal.Payload

open Cert.KernelIdeal Cert.KernelIdeal.Gen Idealize.ShloMosaic Idealize.ShloMosaic.ValueIdx DenseRows Cert.Layer

/-- The body's three products all contract the last axis of a 2000 × 128 block with the first axis of a 128 × 128
    matrix: the plain product. -/
theorem dot_eq_plain : dot_S2000x128_S128x128_S2000x128_1_0_0_1_n_n = DotDims.plain 2000 128 128 := rfl

/-- The stored value is the layer on the block's rows. -/
theorem payload_eq (x0 x1 : Vec Ideal S2000x128 .f32) (b1 b2 : Vec Ideal S128 .f32) (w1 w2 : Vec Ideal S128x128 .f32) :
    k0_pay1 (F := Ideal) x0 x1 b1 b2 w1 w2 = layer x0 x1 w1 b1 w2 b2 := by
  unfold k0_pay1
  simp only [shapeCast_self, dot_eq_plain, dense_of_kernel, truncf_ideal]
  rfl

end Cert.KernelIdeal.Payload

end
-- ==== Proof.PointValue.lean ====
/-
  One grid point's block of the layer is the same rows of the layer of the whole arrays.

  The grid has fifty points. At point `t` the embeddings', the neighbour sums' and the output's windows all sit on
  rows `2000 t … 2000 t + 1999` (column block 0 of one), and the windows of both weight matrices and both biases sit on
  the whole array. So an entry `(p, q)` of the layer computed on the point's blocks is built from row `2000 t + p` of
  the embeddings and of the neighbour sums and from the whole weights and biases, which is what entry
  `(2000 t + p, q)` of the layer of the whole arrays is built from: a row of the layer depends on that row alone.
-/
import proofs.«133104_j4982162063610_1_alg».proof.Proof.Gen.KernelIdeal.Frame
import proofs.«133104_j4982162063610_1_alg».proof.Proof.Layer
import Idealize.ShloMosaic.PureOps.Ideal

noncomputable section

namespace Cert.KernelIdeal.PointValue

open Cert.KernelIdeal Cert.KernelIdeal.Gen Idealize.ShloMosaic Idealize.ShloMosaic.TcCoe Idealize.SL.Sem
open Idealize.ShloMosaic.ValueIdx Cert.Layer

/-- The printed index maps over the fifty points: the embeddings', the neighbour sums' and the output's blocks move
    together down the rows and stay in column block 0; the weights' and biases' blocks never move. -/
theorem index_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (1 : Fin 2) = 0 ∧ win0_6.index t (0 : Fin 2) ≤ 49 :=
  (by decide +kernel : ∀ t : Fin grid0.N, _)

/-- Where the blocks sit at point `t`: the weights' and biases' on the whole array, … -/
theorem emb_w1 (t : Fin cfg0.N) (z : S128x128.Idx) : ((cfg0.win 2).blk t).view.emb z = z := by
  obtain ⟨e00, e01, e10, e11, e20, e21, e3, e40, e41, e5, e61, e60⟩ := index_facts t
  funext a; apply Fin.ext
  match a with
  | ⟨0, _⟩ => show win0_2.index t (0 : Fin 2) * 128 + 1 * (z 0).val = (z 0).val; omega
  | ⟨1, _⟩ => show win0_2.index t (1 : Fin 2) * 128 + 1 * (z 1).val = (z 1).val; omega

theorem emb_b1 (t : Fin cfg0.N) (z : S128.Idx) : ((cfg0.win 3).blk t).view.emb z = z := by
  obtain ⟨e00, e01, e10, e11, e20, e21, e3, e40, e41, e5, e61, e60⟩ := index_facts t
  funext a; apply Fin.ext
  match a with
  | ⟨0, _⟩ => show win0_3.index t (0 : Fin 1) * 128 + 1 * (z 0).val = (z 0).val; omega

theorem emb_w2 (t : Fin cfg0.N) (z : S128x128.Idx) : ((cfg0.win 4).blk t).view.emb z = z := by
  obtain ⟨e00, e01, e10, e11, e20, e21, e3, e40, e41, e5, e61, e60⟩ := index_facts t
  funext a; apply Fin.ext
  match a with
  | ⟨0, _⟩ => show win0_4.index t (0 : Fin 2) * 128 + 1 * (z 0).val = (z 0).val; omega
  | ⟨1, _⟩ => show win0_4.index t (1 : Fin 2) * 128 + 1 * (z 1).val = (z 1).val; omega

theorem emb_b2 (t : Fin cfg0.N) (z : S128.Idx) : ((cfg0.win 5).blk t).view.emb z = z := by
  obtain ⟨e00, e01, e10, e11, e20, e21, e3, e40, e41, e5, e61, e60⟩ := index_facts t
  funext a; apply Fin.ext
  match a with
  | ⟨0, _⟩ => show win0_5.index t (0 : Fin 1) * 128 + 1 * (z 0).val = (z 0).val; omega

/-- The row of the array that row `p` of point `t`'s blocks is. -/
def rowOf (t : Fin cfg0.N) (p : Fin 2000) : Fin 100000 :=
  ⟨win0_6.index t (0 : Fin 2) * 2000 + p.val, by
    obtain ⟨e00, e01, e10, e11, e20, e21, e3, e40, e41, e5, e61, e60⟩ := index_facts t
    have := p.isLt; omega⟩

/-- … the embeddings', the neighbour sums' and the output's on rows `rowOf t ·`, all columns. -/
theorem emb_e (t : Fin cfg0.N) (p : Fin 2000) (k : Fin 128) :
    ((cfg0.win 0).blk t).view.emb (ix2 p k) = ix2 (rowOf t p) k := by
  obtain ⟨e00, e01, e10, e11, e20, e21, e3, e40, e41, e5, e61, e60⟩ := index_facts t
  funext a; apply Fin.ext
  match a with
  | ⟨0, _⟩ => show win0_0.index t (0 : Fin 2) * 2000 + 1 * p.val = win0_6.index t (0 : Fin 2) * 2000 + p.val; omega
  | ⟨1, _⟩ => show win0_0.index t (1 : Fin 2) * 128 + 1 * k.val = k.val; omega

theorem emb_n (t : Fin cfg0.N) (p : Fin 2000) (k : Fin 128) :
    ((cfg0.win 1).blk t).view.emb (ix2 p k) = ix2 (rowOf t p) k := by
  obtain ⟨e00, e01, e10, e11, e20, e21, e3, e40, e41, e5, e61, e60⟩ := index_facts t
  funext a; apply Fin.ext
  match a with
  | ⟨0, _⟩ => show win0_1.index t (0 : Fin 2) * 2000 + 1 * p.val = win0_6.index t (0 : Fin 2) * 2000 + p.val; omega
  | ⟨1, _⟩ => show win0_1.index t (1 : Fin 2) * 128 + 1 * k.val = k.val; omega

theorem emb_out (t : Fin cfg0.N) (p : Fin 2000) (q : Fin 128) :
    ((cfg0.win 6).blk t).view.emb (ix2 p q) = ix2 (rowOf t p) q := by
  obtain ⟨e00, e01, e10, e11, e20, e21, e3, e40, e41, e5, e61, e60⟩ := index_facts t
  funext a; apply Fin.ext
  match a with
  | ⟨0, _⟩ => show win0_6.index t (0 : Fin 2) * 2000 + 1 * p.val = win0_6.index t (0 : Fin 2) * 2000 + p.val; omega
  | ⟨1, _⟩ => show win0_6.index t (1 : Fin 2) * 128 + 1 * q.val = q.val; omega

/-- For ANY six arrays: the layer on blocks that read them where point `t`'s windows sit, at an entry of the block,
    is the layer of the whole arrays at the entry of the array that the output's block puts there. -/
theorem point_value (t : Fin cfg0.N) (A0 A1 : Vec Ideal S100000x128 .f32) (A2 : Vec Ideal S128x128 .f32)
    (A3 : Vec Ideal S128 .f32) (A4 : Vec Ideal S128x128 .f32) (A5 : Vec Ideal S128 .f32)
    (e n : Vec Ideal S2000x128 .f32) (w1 : Vec Ideal S128x128 .f32)
    (b1 : Vec Ideal S128 .f32) (w2 : Vec Ideal S128x128 .f32) (b2 : Vec Ideal S128 .f32)
    (he : ∀ y : S2000x128.Idx, e y = A0 (((cfg0.win 0).blk t).view.emb y))
    (hn : ∀ y : S2000x128.Idx, n y = A1 (((cfg0.win 1).blk t).view.emb y))
    (hw1 : ∀ z : S128x128.Idx, w1 z = A2 (((cfg0.win 2).blk t).view.emb z))
    (hb1 : ∀ z : S128.Idx, b1 z = A3 (((cfg0.win 3).blk t).view.emb z))
    (hw2 : ∀ z : S128x128.Idx, w2 z = A4 (((cfg0.win 4).blk t).view.emb z))
    (hb2 : ∀ z : S128.Idx, b2 z = A5 (((cfg0.win 5).blk t).view.emb z))
    (y : S2000x128.Idx) :
    layer (R := 2000) e n w1 b1 w2 b2 y
      = layer (R := 100000) A0 A1 A2 A3 A4 A5 (((cfg0.win 6).blk t).view.emb y) := by
  obtain ⟨p, q, rfl⟩ : ∃ (p : Fin 2000) (q : Fin 128), y = ix2 p q := ⟨y 0, y 1, eq_ix2 y⟩
  have ew1 : w1 = A2 := funext fun z => (hw1 z).trans (by rw [emb_w1 t z])
  have eb1 : b1 = A3 := funext fun z => (hb1 z).trans (by rw [emb_b1 t z])
  have ew2 : w2 = A4 := funext fun z => (hw2 z).trans (by rw [emb_w2 t z])
  have eb2 : b2 = A5 := funext fun z => (hb2 z).trans (by rw [emb_b2 t z])
  rw [emb_out t p q, ew1, eb1, ew2, eb2]
  exact layer_row_congr (R := 2000) (R' := 100000) e n A0 A1 A2 A3 A4 A5 p (rowOf t p)
    (fun k => (he (ix2 p k)).trans (by rw [emb_e t p k]))
    (fun k => (hn (ix2 p k)).trans (by rw [emb_n t p k])) q

/-- The same for the whole block: what point `t` would write back of the layer on its blocks is block `t` of the layer
    of the whole arrays. -/
theorem block_of_layer (t : Fin cfg0.N) (A0 A1 : Vec Ideal S100000x128 .f32) (A2 : Vec Ideal S128x128 .f32)
    (A3 : Vec Ideal S128 .f32) (A4 : Vec Ideal S128x128 .f32) (A5 : Vec Ideal S128 .f32) :
    (cfg0.win 6).cut (grid0.coords t)
        (layer (R := 2000) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5))
      = ((cfg0.win 6).blk t).view.read (Elt Ideal) (layer (R := 100000) A0 A1 A2 A3 A4 A5) := by
  funext j
  exact point_value t A0 A1 A2 A3 A4 A5
    (((cfg0.win 0).blk t).view.read (Elt Ideal) A0) (((cfg0.win 1).blk t).view.read (Elt Ideal) A1)
    (((cfg0.win 2).blk t).view.read (Elt Ideal) A2) (((cfg0.win 3).blk t).view.read (Elt Ideal) A3)
    (((cfg0.win 4).blk t).view.read (Elt Ideal) A4) (((cfg0.win 5).blk t).view.read (Elt Ideal) A5)
    (fun _ => rfl) (fun _ => rfl) (fun _ => rfl) (fun _ => rfl) (fun _ => rfl) (fun _ => rfl) j

end Cert.KernelIdeal.PointValue

end
-- ==== Proof.HostArrays.lean ====
/-
  The arrays the host operations hand to the kernel's launch, at the ideal values.

  Before the launch the program computes, on the host, the neighbour sums (`nbr`: for every edge the embedding row of
  its source, scaled by the edge's weight, added into the row of its target) and the transposes of both weight
  matrices. The launch's second, third and fifth windows stage exactly those three arrays; the others stage argument
  arrays, which no host operation writes.
-/
import proofs.«133104_j4982162063610_1_alg».proof.Proof.Gen.KernelIdeal.Frame
import Idealize.ShloMosaic.Lib.StableHlo.Run
import Idealize.ShloMosaic.PureOps.Ideal

noncomputable section

namespace Cert.KernelIdeal.HostArrays

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The neighbour sums: for every edge, the embedding row of its source (a negative source index first wrapped by
    the number of nodes) times the edge's weight, added into the row of its target, from zero. -/
def nbr (a0 : Vec Ideal S100000x128 .f32) (a1 : Vec Ideal S1600000 .f32) (a6 a7 : Vec Ideal S1600000 .i32) :
    Vec Ideal S100000x128 .f32 :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 a6)
    (mulf (F := Ideal) (φ := .f32)
      (broadcastInDim S1600000x128 ![0, 1] bcast_S1600000x1_S1600000x128_0_1
        (broadcastInDim S1600000x1 ![0] bcast_S1600000_S1600000x1_0 a1))
      (Host.gather gather_S100000x128_S1600000x1_S1600000x128_1_0_n_n_0_1_1128 a0
        (broadcastInDim S1600000x1 ![0] bcast_S1600000_S1600000x1_0
          (select (cmpi .slt a7 (broadcastInDim S1600000 ![] bcast_S_S1600000 (constantI S_ 32 0#32)))
            (addi a7 (broadcastInDim S1600000 ![] bcast_S_S1600000 (constantI S_ 32 100000#32))) a7))))

/-- The launch finds the neighbour sums of the argument arrays in the buffer its second window stages. -/
theorem V_nbr (c : Dev nD) : (V m c main_v12 : S100000x128.Idx → EReal)
    = nbr (m ((c : Thread nD τ).loc main_arg0)) (m ((c : Thread nD τ).loc main_arg1))
        (m ((c : Thread nD τ).loc main_arg6)) (m ((c : Thread nD τ).loc main_arg7)) := by
  dsimp only [Gen.V, Gen.hostOps0]
  after_results
  rfl

/-- … the first weight matrix transposed in its third window's buffer, -/
theorem V_w1t (c : Dev nD) : (V m c main_v13 : S128x128.Idx → EReal)
    = transpose S128x128 [1, 0] (m ((c : Thread nD τ).loc main_arg2)) transposes_S128x128_S128x128_1_0 := by
  dsimp only [Gen.V, Gen.hostOps0]
  after_results

/-- … and the second weight matrix transposed in its fifth window's. -/
theorem V_w2t (c : Dev nD) : (V m c main_v14 : S128x128.Idx → EReal)
    = transpose S128x128 [1, 0] (m ((c : Thread nD τ).loc main_arg4)) transposes_S128x128_S128x128_1_0 := by
  dsimp only [Gen.V, Gen.hostOps0]
  after_results

end Cert.KernelIdeal.HostArrays

end
-- ==== Proof.KernelValue.lean ====
/-
  What the kernel leaves in its output array, as a function of the argument arrays, at the ideal values.

  Point `t` of the grid writes back the value its body stores, which is the layer's formula on the point's blocks;
  read entry by entry that is rows `2000 t … 2000 t + 1999` of `G`, the layer of the whole arrays the launch finds. The
  fifty blocks cover all 100000 rows, so after the run the output array is `G`; and the arrays the launch finds are
  the embeddings and both biases as launched, the neighbour sums `nbr` of the arguments, and both weights transposed.
-/
import proofs.«133104_j4982162063610_1_alg».proof.Proof.Gen.KernelIdeal.Value
import proofs.«133104_j4982162063610_1_alg».proof.Proof.KernelPayload
import proofs.«133104_j4982162063610_1_alg».proof.Proof.PointValue
import proofs.«133104_j4982162063610_1_alg».proof.Proof.HostArrays

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Cert.Layer Cert.KernelIdeal.PointValue Cert.KernelIdeal.HostArrays
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a; rfl

/-- The output array after the run: the layer of the six arrays the launch's input windows stage. -/
def G (c : Dev nD) : S100000x128.Idx → EReal :=
  layer (R := 100000) (V m c (Pipeline.arrRef spec0 (0 : Fin cfg0.W))) (V m c (Pipeline.arrRef spec0 (1 : Fin cfg0.W)))
    (V m c (Pipeline.arrRef spec0 (2 : Fin cfg0.W))) (V m c (Pipeline.arrRef spec0 (3 : Fin cfg0.W)))
    (V m c (Pipeline.arrRef spec0 (4 : Fin cfg0.W))) (V m c (Pipeline.arrRef spec0 (5 : Fin cfg0.W)))

/-- What point `t` writes back is block `t` of `G`: the stored value is the layer on the point's blocks, each block
    the staged array read where its window sits; which arrays they are plays no part. -/
theorem flushed_eq (c : Dev nD) (t : Fin cfg0.N) :
    (dats m 0 c).flushed 6 t = ((cfg0.win 6).blk t).view.read (Elt Ideal) (G m c) := by
  rw [Value.flushed6]
  unfold out0_6
  rw [View.canon_unit_zero origin2]
  simp only [View.ld_unit_zero (S := S2000x128) origin2, View.ld_unit_zero (S := S128x128) origin2,
    View.ld_unit_zero (S := S128) origin1]
  rw [Payload.payload_eq]
  unfold iblk G
  generalize V m c (Pipeline.arrRef spec0 (0 : Fin cfg0.W)) = A0
  generalize V m c (Pipeline.arrRef spec0 (1 : Fin cfg0.W)) = A1
  generalize V m c (Pipeline.arrRef spec0 (2 : Fin cfg0.W)) = A2
  generalize V m c (Pipeline.arrRef spec0 (3 : Fin cfg0.W)) = A3
  generalize V m c (Pipeline.arrRef spec0 (4 : Fin cfg0.W)) = A4
  generalize V m c (Pipeline.arrRef spec0 (5 : Fin cfg0.W)) = A5
  exact block_of_layer t A0 A1 A2 A3 A4 A5

/-! ## The fifty blocks cover the array -/

/-- Every block of fifty is some point's. -/
theorem index_onto : ∀ q : Fin 50, ∃ t : Fin cfg0.N, win0_6.index t (0 : Fin 2) = q.val :=
  (by decide +kernel : ∀ q : Fin 50, ∃ t : Fin grid0.N, win0_6.index t (0 : Fin 2) = q.val)

/-- An index of the array is in point `t`'s block iff each coordinate is in the block's range on its axis. -/
theorem mem_block (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v15).slice (win0_6.rect t)).set ↔ _
  rw [View.set_slice_whole, Rect.mem_set_unit]
  exact Iff.rfl

/-- Every index lies in the block of the point that owns its row's block of 2000. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := index_onto ⟨(i 0).val / 2000, by omega⟩
  have ht' : win0_6.index t (0 : Fin 2) = (i 0).val / 2000 := ht
  obtain ⟨-, -, -, -, -, -, -, -, -, -, e61, -⟩ := index_facts t
  refine ⟨t, flush0_6 t, ?_⟩
  rw [mem_block]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- The output array after the run is `G`. -/
theorem final (c : Dev nD) : (dats m 0 c).arrAt 6 cfg0.N = G m c :=
  (dats m 0 c).arrAt_eq_of_cover 6 (G m c) (fun t _ => flushed_eq m c t) covered

/-- The six staged arrays: the embeddings and both biases as launched, the neighbour sums of the arguments, and both
    weight matrices transposed. -/
theorem staged0 (c : Dev nD) : V m c (Pipeline.arrRef spec0 (0 : Fin cfg0.W)) = m ((c : Thread nD τ).loc main_arg0) :=
  V_main_arg0 m c
theorem staged1 (c : Dev nD) : (V m c (Pipeline.arrRef spec0 (1 : Fin cfg0.W)) : S100000x128.Idx → EReal)
    = nbr (m ((c : Thread nD τ).loc main_arg0)) (m ((c : Thread nD τ).loc main_arg1))
        (m ((c : Thread nD τ).loc main_arg6)) (m ((c : Thread nD τ).loc main_arg7)) :=
  V_nbr m c
theorem staged2 (c : Dev nD) : (V m c (Pipeline.arrRef spec0 (2 : Fin cfg0.W)) : S128x128.Idx → EReal)
    = transpose S128x128 [1, 0] (m ((c : Thread nD τ).loc main_arg2)) transposes_S128x128_S128x128_1_0 :=
  V_w1t m c
theorem staged3 (c : Dev nD) : V m c (Pipeline.arrRef spec0 (3 : Fin cfg0.W)) = m ((c : Thread nD τ).loc main_arg3) :=
  V_main_arg3 m c
theorem staged4 (c : Dev nD) : (V m c (Pipeline.arrRef spec0 (4 : Fin cfg0.W)) : S128x128.Idx → EReal)
    = transpose S128x128 [1, 0] (m ((c : Thread nD τ).loc main_arg4)) transposes_S128x128_S128x128_1_0 :=
  V_w2t m c
theorem staged5 (c : Dev nD) : V m c (Pipeline.arrRef spec0 (5 : Fin cfg0.W)) = m ((c : Thread nD τ).loc main_arg5) :=
  V_main_arg5 m c

/-- `G` over the argument arrays as launched. -/
theorem G_eq (c : Dev nD) : G m c
    = layer (R := 100000) (m ((c : Thread nD τ).loc main_arg0))
        (nbr (m ((c : Thread nD τ).loc main_arg0)) (m ((c : Thread nD τ).loc main_arg1))
          (m ((c : Thread nD τ).loc main_arg6)) (m ((c : Thread nD τ).loc main_arg7)))
        (transpose S128x128 [1, 0] (m ((c : Thread nD τ).loc main_arg2)) transposes_S128x128_S128x128_1_0)
        (m ((c : Thread nD τ).loc main_arg3))
        (transpose S128x128 [1, 0] (m ((c : Thread nD τ).loc main_arg4)) transposes_S128x128_S128x128_1_0)
        (m ((c : Thread nD τ).loc main_arg5)) := by
  unfold G
  rw [staged0 m c, staged1 m c, staged2 m c, staged3 m c, staged4 m c, staged5 m c]

/-- Every run of the kernel's program terminates with its output array at the layer of the argument arrays (the
    neighbour sums `nbr` of them, the weights transposed) and the arguments unchanged. -/
theorem run : θ_run defs (onTc (τ := τ) (main (F := Ideal))) ⟨m, fun _ => 0, ρ⟩ fun r => ∀ c : Dev nD,
      r.2.mem ((c : Thread nD τ).loc main_v15)
        = layer (R := 100000) (m ((c : Thread nD τ).loc main_arg0))
            (nbr (m ((c : Thread nD τ).loc main_arg0)) (m ((c : Thread nD τ).loc main_arg1))
              (m ((c : Thread nD τ).loc main_arg6)) (m ((c : Thread nD τ).loc main_arg7)))
            (transpose S128x128 [1, 0] (m ((c : Thread nD τ).loc main_arg2)) transposes_S128x128_S128x128_1_0)
            (m ((c : Thread nD τ).loc main_arg3))
            (transpose S128x128 [1, 0] (m ((c : Thread nD τ).loc main_arg4)) transposes_S128x128_S128x128_1_0)
            (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (G_eq m c)), (h c).2⟩)
    (Value.run_blocks m ρ)

end Cert.KernelIdeal.KValue

end
-- ==== Proof.RefRun.lean ====
/-
  The reference read as a straight line of host operations, and what its result buffer holds when it ends.

  The reference makes no kernel launch: its program is forty-two tensor operations in a row, the last seven of them
  the body of the activation it calls (a comparison with zero, the slope times the argument, a select), laid out here
  at the call site over the call's own buffers. A run of such a line always terminates, and each buffer ends holding
  the composition of the operations that lead to it, applied to the argument arrays as launched. That composition
  is named in two steps: `nbr`, the neighbour sums (each edge's source row gathered, scaled by the edge's weight and
  added into the row of the edge's target, starting from zero; a negative source index is first wrapped by the number
  of nodes), and `out`, the dense part of the layer over `nbr` and the embeddings.
-/
import proofs.«133104_j4982162063610_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

/-- The operations in program order; the last seven are the activation's body at its one call. -/
abbrev ops : List (HloOp τ sig (Elt F)) :=
  [ unary main_arg1 main_v0 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v1 (broadcastInDim S1600000 ![] bcast_S_S1600000 : (⟨S_, .i32⟩ : BufTy).Contents (Elt F) → (⟨S1600000, .i32⟩ : BufTy).Contents (Elt F)),
    binary main_arg7 main_v1 main_v2 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v3 (broadcastInDim S1600000 ![] bcast_S_S1600000 : (⟨S_, .i32⟩ : BufTy).Contents (Elt F) → (⟨S1600000, .i32⟩ : BufTy).Contents (Elt F)),
    binary main_arg7 main_v3 main_v4 (addi : (⟨S1600000, .i32⟩ : BufTy).Contents (Elt F) → (⟨S1600000, .i32⟩ : BufTy).Contents (Elt F) → (⟨S1600000, .i32⟩ : BufTy).Contents (Elt F)),
    ternary main_v2 main_v4 main_arg7 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v5 main_v6 (broadcastInDim S1600000x1 ![0] bcast_S1600000_S1600000x1_0 : (⟨S1600000, .i32⟩ : BufTy).Contents (Elt F) → (⟨S1600000x1, .i32⟩ : BufTy).Contents (Elt F)),
    binary main_arg0 main_v6 main_v7 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v0 main_v8 (broadcastInDim S1600000x128 ![0, 1] bcast_S1600000x1_S1600000x128_0_1 : (⟨S1600000x1, .f32⟩ : BufTy).Contents (Elt F) → (⟨S1600000x128, .f32⟩ : BufTy).Contents (Elt F)),
    binary main_v8 main_v7 main_v9 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v10 (broadcastInDim S100000x128 ![] bcast_S_S100000x128 : (⟨S_, .f32⟩ : BufTy).Contents (Elt F) → (⟨S100000x128, .f32⟩ : BufTy).Contents (Elt F)),
    unary main_arg6 main_v11 (broadcastInDim S1600000x1 ![0] bcast_S1600000_S1600000x1_0 : (⟨S1600000, .i32⟩ : BufTy).Contents (Elt F) → (⟨S1600000x1, .i32⟩ : BufTy).Contents (Elt F)),
    ternary main_v10 main_v11 main_v9 main_v12 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg2 main_v13 ((transpose S128x128 [1, 0] · transposes_S128x128_S128x128_1_0) : (⟨S128x128, .f32⟩ : BufTy).Contents (Elt F) → (⟨S128x128, .f32⟩ : BufTy).Contents (Elt F)),
    binary main_arg0 main_v13 main_v14 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v15 (broadcastInDim S1x128 ![1] bcast_S128_S1x128_1 : (⟨S128, .f32⟩ : BufTy).Contents (Elt F) → (⟨S1x128, .f32⟩ : BufTy).Contents (Elt F)),
    unary main_v15 main_v16 (broadcastInDim S100000x128 ![0, 1] bcast_S1x128_S100000x128_0_1 : (⟨S1x128, .f32⟩ : BufTy).Contents (Elt F) → (⟨S100000x128, .f32⟩ : BufTy).Contents (Elt F)),
    binary main_v14 main_v16 main_v17 (addf : (⟨S100000x128, .f32⟩ : BufTy).Contents (Elt F) → (⟨S100000x128, .f32⟩ : BufTy).Contents (Elt F) → (⟨S100000x128, .f32⟩ : BufTy).Contents (Elt F)),
    unary main_arg4 main_v18 ((transpose S128x128 [1, 0] · transposes_S128x128_S128x128_1_0) : (⟨S128x128, .f32⟩ : BufTy).Contents (Elt F) → (⟨S128x128, .f32⟩ : BufTy).Contents (Elt F)),
    binary main_v12 main_v18 main_v19 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v20 (broadcastInDim S1x128 ![1] bcast_S128_S1x128_1 : (⟨S128, .f32⟩ : BufTy).Contents (Elt F) → (⟨S1x128, .f32⟩ : BufTy).Contents (Elt F)),
    unary main_v20 main_v21 (broadcastInDim S100000x128 ![0, 1] bcast_S1x128_S100000x128_0_1 : (⟨S1x128, .f32⟩ : BufTy).Contents (Elt F) → (⟨S100000x128, .f32⟩ : BufTy).Contents (Elt F)),
    binary main_v19 main_v21 main_v22 (addf : (⟨S100000x128, .f32⟩ : BufTy).Contents (Elt F) → (⟨S100000x128, .f32⟩ : BufTy).Contents (Elt F) → (⟨S100000x128, .f32⟩ : BufTy).Contents (Elt F)),
    binary main_v22 main_arg0 main_v23 (mulf : (⟨S100000x128, .f32⟩ : BufTy).Contents (Elt F) → (⟨S100000x128, .f32⟩ : BufTy).Contents (Elt F) → (⟨S100000x128, .f32⟩ : BufTy).Contents (Elt F)),
    unary main_arg4 main_v24 ((transpose S128x128 [1, 0] · transposes_S128x128_S128x128_1_0) : (⟨S128x128, .f32⟩ : BufTy).Contents (Elt F) → (⟨S128x128, .f32⟩ : BufTy).Contents (Elt F)),
    binary main_v23 main_v24 main_v25 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v26 (broadcastInDim S1x128 ![1] bcast_S128_S1x128_1 : (⟨S128, .f32⟩ : BufTy).Contents (Elt F) → (⟨S1x128, .f32⟩ : BufTy).Contents (Elt F)),
    unary main_v26 main_v27 (broadcastInDim S100000x128 ![0, 1] bcast_S1x128_S100000x128_0_1 : (⟨S1x128, .f32⟩ : BufTy).Contents (Elt F) → (⟨S100000x128, .f32⟩ : BufTy).Contents (Elt F)),
    binary main_v25 main_v27 main_v28 (addf : (⟨S100000x128, .f32⟩ : BufTy).Contents (Elt F) → (⟨S100000x128, .f32⟩ : BufTy).Contents (Elt F) → (⟨S100000x128, .f32⟩ : BufTy).Contents (Elt F)),
    binary main_v17 main_v22 main_v29 (addf : (⟨S100000x128, .f32⟩ : BufTy).Contents (Elt F) → (⟨S100000x128, .f32⟩ : BufTy).Contents (Elt F) → (⟨S100000x128, .f32⟩ : BufTy).Contents (Elt F)),
    binary main_v29 main_v28 main_v30 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x3E4CCCCD#32),
    TRef.nullary main_call0.cst (constant S_ .f32 0x00000000#32),
    TRef.unary main_call0.cst main_call0.v0 (broadcastInDim S100000x128 ![] bcast_S_S100000x128),
    TRef.binary (.of main_v30) main_call0.v0 main_call0.v1 (cmpf .oge),
    TRef.unary (.of main_cst_1) main_call0.v2 id,
    TRef.unary main_call0.v2 main_call0.v3 (broadcastInDim S100000x128 ![] bcast_S_S100000x128),
    TRef.binary main_call0.v3 (.of main_v30) main_call0.v4 mulf,
    TRef.ternary main_call0.v1 (.of main_v30) main_call0.v4 main_call0.call0.v0 select ]

set_option maxRecDepth 2048 in
/-- The program is that line: the called functions unfolded at their calls, sequencing re-associated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., binary_bufs_sub ..,
    unary_bufs_sub .., unary_bufs_sub .., binary_bufs_sub .., unary_bufs_sub .., binary_bufs_sub .., unary_bufs_sub ..,
    unary_bufs_sub .., binary_bufs_sub .., binary_bufs_sub .., unary_bufs_sub .., binary_bufs_sub .., unary_bufs_sub ..,
    unary_bufs_sub .., binary_bufs_sub .., binary_bufs_sub .., binary_bufs_sub .., nullary_bufs_sub ..,
    nullary_bufs_sub .., unary_bufs_sub .., binary_bufs_sub .., unary_bufs_sub .., unary_bufs_sub .., binary_bufs_sub ..,
    ternary_bufs_sub ..⟩

/-- Every run of the reference terminates, and each buffer ends at the fold of the operations over the launch
    contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  What the reference's result buffer holds, as a function of the argument arrays, at the ideal values.

  Read off its run, the result is the program's own composition: the neighbour sums `nbr`, both weight matrices
  transposed, three times a `dot_general` followed by a bias broadcast first to one row and then down every row, the
  sum of the three terms in program order, and the activation spelt as a comparison with a broadcast zero and a select
  between the sum and the broadcast slope times the sum. Each `dot_general` plus bias is the dense layer `x · w + b`
  entry by entry, and a broadcast scalar reads the scalar at every index, so the composition is the layer's formula
  `Cert.Layer.layer` on all 100000 rows.
-/
import proofs.«133104_j4982162063610_1_alg».proof.Proof.RefRun
import proofs.«133104_j4982162063610_1_alg».proof.Proof.Layer

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo
open Idealize.ShloMosaic.ValueIdx DenseRows Cert.Layer

/-- The neighbour sums: for every edge, the embedding row of its source (a negative source index first wrapped by
    the number of nodes) times the edge's weight, added into the row of its target, from zero. -/
def nbr (a0 : Vec Ideal S100000x128 .f32) (a1 : Vec Ideal S1600000 .f32) (a6 a7 : Vec Ideal S1600000 .i32) :
    Vec Ideal S100000x128 .f32 :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 a6)
    (mulf (F := Ideal) (φ := .f32)
      (broadcastInDim S1600000x128 ![0, 1] bcast_S1600000x1_S1600000x128_0_1
        (broadcastInDim S1600000x1 ![0] bcast_S1600000_S1600000x1_0 a1))
      (Host.gather gather_S100000x128_S1600000x1_S1600000x128_1_0_n_n_0_1_1128 a0
        (broadcastInDim S1600000x1 ![0] bcast_S1600000_S1600000x1_0
          (select (cmpi .slt a7 (broadcastInDim S1600000 ![] bcast_S_S1600000 (constantI S_ 32 0#32)))
            (addi a7 (broadcastInDim S1600000 ![] bcast_S_S1600000 (constantI S_ 32 100000#32))) a7))))

/-- One `dot_general` with its bias, as the program spells it. -/
def affine (x : Vec Ideal S100000x128 .f32) (w : Vec Ideal S128x128 .f32) (b : Vec Ideal S128 .f32) :
    Vec Ideal S100000x128 .f32 :=
  addf (F := Ideal) (φ := .f32) (Host.dotGeneral (F := Ideal) (φ₁ := .f32) (φ₂ := .f32) dot_S100000x128_S128x128_S100000x128_1_0_0_1_n_n none x w)
    (broadcastInDim S100000x128 ![0, 1] bcast_S1x128_S100000x128_0_1 (broadcastInDim S1x128 ![1] bcast_S128_S1x128_1 b))

/-- The sum of the self, neighbour and interaction terms, in program order. -/
def pre (e n : Vec Ideal S100000x128 .f32) (w1 : Vec Ideal S128x128 .f32) (b1 : Vec Ideal S128 .f32)
    (w2 : Vec Ideal S128x128 .f32) (b2 : Vec Ideal S128 .f32) : Vec Ideal S100000x128 .f32 :=
  addf (F := Ideal) (φ := .f32) (addf (F := Ideal) (φ := .f32) (affine e w1 b1) (affine n w2 b2))
    (affine (mulf (F := Ideal) (φ := .f32) (affine n w2 b2) e) w2 b2)

/-- The result as the program composes it. -/
def out (e n : Vec Ideal S100000x128 .f32) (w1 : Vec Ideal S128x128 .f32) (b1 : Vec Ideal S128 .f32)
    (w2 : Vec Ideal S128x128 .f32) (b2 : Vec Ideal S128 .f32) : Vec Ideal S100000x128 .f32 :=
  select
    (cmpf (F := Ideal) (φ := .f32) .oge (pre e n w1 b1 w2 b2)
      (broadcastInDim S100000x128 ![] bcast_S_S100000x128 (constant (F := Ideal) S_ .f32 0x00000000#32)))
    (pre e n w1 b1 w2 b2)
    (mulf (F := Ideal) (φ := .f32) (broadcastInDim S100000x128 ![] bcast_S_S100000x128 (id (constant (F := Ideal) S_ .f32 0x3E4CCCCD#32)))
      (pre e n w1 b1 w2 b2))

/-- The reference's three products contract the last axis of a 100000 × 128 array with the first axis of a
    128 × 128 matrix: the plain product. -/
theorem dot_eq_plain : dot_S100000x128_S128x128_S100000x128_1_0_0_1_n_n = DotDims.plain 100000 128 128 := rfl

/-- One `dot_general` with its bias is the dense layer read entry by entry. -/
theorem affine_eq (x : Vec Ideal S100000x128 .f32) (w : Vec Ideal S128x128 .f32) (b : Vec Ideal S128 .f32) :
    affine x w b = dense x w b :=
  dense_of_host (φ₁ := .f32) (φ₂ := .f32) none x w b bcast_S128_S1x128_1 bcast_S1x128_S100000x128_0_1

/-- The composition is the layer on all rows. -/
theorem out_eq_layer (e n : Vec Ideal S100000x128 .f32) (w1 : Vec Ideal S128x128 .f32) (b1 : Vec Ideal S128 .f32)
    (w2 : Vec Ideal S128x128 .f32) (b2 : Vec Ideal S128 .f32) : out e n w1 b1 w2 b2 = layer e n w1 b1 w2 b2 := by
  unfold out pre
  simp only [affine_eq]
  rfl

/-- What the fold of the operations leaves in the result buffer. -/
theorem result_eq (V : Valuation τ sig (Elt Ideal)) :
    after ops V (main_v31 : DevRef τ sig)
      = out (V (main_arg0 : DevRef τ sig))
          (nbr (V (main_arg0 : DevRef τ sig)) (V (main_arg1 : DevRef τ sig)) (V (main_arg6 : DevRef τ sig)) (V (main_arg7 : DevRef τ sig)))
          (transpose S128x128 [1, 0] (V (main_arg2 : DevRef τ sig)) transposes_S128x128_S128x128_1_0) (V (main_arg3 : DevRef τ sig))
          (transpose S128x128 [1, 0] (V (main_arg4 : DevRef τ sig)) transposes_S128x128_S128x128_1_0) (V (main_arg5 : DevRef τ sig)) := by
  after_results_simp
  rfl

/-! ## The run, posted -/

theorem arg0_kept (V : Valuation τ sig (Elt Ideal)) : after ops V (main_arg0 : DevRef τ sig) = V (main_arg0 : DevRef τ sig) := by
  after_results_simp
theorem arg1_kept (V : Valuation τ sig (Elt Ideal)) : after ops V (main_arg1 : DevRef τ sig) = V (main_arg1 : DevRef τ sig) := by
  after_results_simp
theorem arg2_kept (V : Valuation τ sig (Elt Ideal)) : after ops V (main_arg2 : DevRef τ sig) = V (main_arg2 : DevRef τ sig) := by
  after_results_simp
theorem arg3_kept (V : Valuation τ sig (Elt Ideal)) : after ops V (main_arg3 : DevRef τ sig) = V (main_arg3 : DevRef τ sig) := by
  after_results_simp
theorem arg4_kept (V : Valuation τ sig (Elt Ideal)) : after ops V (main_arg4 : DevRef τ sig) = V (main_arg4 : DevRef τ sig) := by
  after_results_simp
theorem arg5_kept (V : Valuation τ sig (Elt Ideal)) : after ops V (main_arg5 : DevRef τ sig) = V (main_arg5 : DevRef τ sig) := by
  after_results_simp
theorem arg6_kept (V : Valuation τ sig (Elt Ideal)) : after ops V (main_arg6 : DevRef τ sig) = V (main_arg6 : DevRef τ sig) := by
  after_results_simp
theorem arg7_kept (V : Valuation τ sig (Elt Ideal)) : after ops V (main_arg7 : DevRef τ sig) = V (main_arg7 : DevRef τ sig) := by
  after_results_simp

/-- Every run of the reference terminates with its result buffer at the layer of the argument arrays (the neighbour
    sums `nbr` of them, the weights transposed) and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31)
        = layer (R := 100000) (m ((c.tc : Thread nD τ).loc main_arg0))
            (nbr (m ((c.tc : Thread nD τ).loc main_arg0)) (m ((c.tc : Thread nD τ).loc main_arg1))
              (m ((c.tc : Thread nD τ).loc main_arg6)) (m ((c.tc : Thread nD τ).loc main_arg7)))
            (transpose S128x128 [1, 0] (m ((c.tc : Thread nD τ).loc main_arg2)) transposes_S128x128_S128x128_1_0)
            (m ((c.tc : Thread nD τ).loc main_arg3))
            (transpose S128x128 [1, 0] (m ((c.tc : Thread nD τ).loc main_arg4)) transposes_S128x128_S128x128_1_0)
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c main_v31).trans ((result_eq (launchContents m c)).trans (out_eq_layer _ _ _ _ _ _)),
      (h c main_arg0).trans (arg0_kept _), (h c main_arg1).trans (arg1_kept _), (h c main_arg2).trans (arg2_kept _),
      (h c main_arg3).trans (arg3_kept _), (h c main_arg4).trans (arg4_kept _), (h c main_arg5).trans (arg5_kept _),
      (h c main_arg6).trans (arg6_kept _), (h c main_arg7).trans (arg7_kept _)⟩)
    (run_fold m ρ)

end Cert.ReferenceIdeal.RefValue

end
-- ==== Proof.lean ====
/-
  A graph-convolution layer with an interaction term: the tiled kernel against the whole-array reference, over the
  extended reals.

  With `E` the node embeddings (100000 × 128), `N` the neighbour sums (for every edge, the source node's embedding
  row times the edge's weight, added into the target node's row), `W1`, `W2` the weights and `b1`, `b2` the biases,
  both programs compute

      leaky ( ((E·W1ᵀ + b1) + (N·W2ᵀ + b2)) + (((N·W2ᵀ + b2) ∘ E)·W2ᵀ + b2) )

  with `leaky t = t` where `t ≥ 0` and the slope word times `t` elsewhere. Both form `N` and the two transposes by the
  same host operations. They differ in how the dense part is laid out: the reference applies three `dot_general`s to
  whole arrays; the kernel walks fifty blocks of 2000 rows and, on each, multiplies into a zero accumulator after a
  conversion to a sixteen-bit format. At the ideal values the conversion is the identity and a product into zero is
  the product, so each block's value is the layer's formula on that block's rows; a row of the layer depends on the
  same row of `E` and `N` alone, so the fifty blocks are the fifty row ranges of the layer of the whole arrays, and they
  cover the array. No sum is regrouped and no factor is moved across a sum: the precondition (finite inputs) is not
  used, and the integer edge endpoints may be anything (both programs read them through the same gather and scatter).

  The kernel's and its idealization's frames are the generated ones; the reference makes no launch, so its frame is
  its run as a straight line of host operations with the result dropped. The ideal pass rewrote nothing, so there
  is nothing to preserve.
-/
import proofs.«133104_j4982162063610_1_alg».proof.Defs
import proofs.«133104_j4982162063610_1_alg».proof.Proof.Gen.Kernel
import proofs.«133104_j4982162063610_1_alg».proof.Proof.Gen.Kernel.Skeleton
import proofs.«133104_j4982162063610_1_alg».proof.Proof.Gen.Kernel.Launch
import proofs.«133104_j4982162063610_1_alg».proof.Proof.Gen.Kernel.Points
import proofs.«133104_j4982162063610_1_alg».proof.Proof.Gen.Kernel.Frame
import proofs.«133104_j4982162063610_1_alg».proof.Proof.Gen.KernelIdeal
import proofs.«133104_j4982162063610_1_alg».proof.Proof.Gen.KernelIdeal.Skeleton
import proofs.«133104_j4982162063610_1_alg».proof.Proof.Gen.KernelIdeal.Launch
import proofs.«133104_j4982162063610_1_alg».proof.Proof.Gen.KernelIdeal.Points
import proofs.«133104_j4982162063610_1_alg».proof.Proof.Gen.KernelIdeal.Frame
import proofs.«133104_j4982162063610_1_alg».proof.Proof.Gen.KernelIdeal.Value
import proofs.«133104_j4982162063610_1_alg».proof.Proof.Gen.ReferenceIdeal
import proofs.«133104_j4982162063610_1_alg».proof.Proof.Gen.Pre_finite_inputs
import proofs.«133104_j4982162063610_1_alg».proof.Proof.KernelValue
import proofs.«133104_j4982162063610_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.RefValue.run m ρ)

/-- Both programs form the neighbour sums by the same operations: one function of the argument arrays. -/
theorem nbr_eq (a0 : Vec Ideal Cert.ReferenceIdeal.S100000x128 .f32) (a1 : Vec Ideal Cert.ReferenceIdeal.S1600000 .f32)
    (a6 a7 : Vec Ideal Cert.ReferenceIdeal.S1600000 .i32) :
    Cert.ReferenceIdeal.RefValue.nbr a0 a1 a6 a7 = Cert.KernelIdeal.HostArrays.nbr a0 a1 a6 a7 := rfl

/-- From memories that agree on the arguments both programs end with the layer of those arguments in their result
    arrays. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7⟩ := hagree c
  rw [h0, h1, h2, h3, h4, h5, h6, h7, nbr_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
